-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 256]⟩ ⟨2, ![1, 512]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S512x256 : Shape := ⟨2, ![512, 256]⟩
abbrev S1x256 : Shape := ⟨2, ![1, 256]⟩
abbrev S2x1x256 : Shape := ⟨3, ![2, 1, 256]⟩
abbrev S_ : Shape := ⟨0, ![]⟩
abbrev S256 : Shape := ⟨1, ![256]⟩
abbrev S1x1x256 : Shape := ⟨3, ![1, 1, 256]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S2x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_14 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_13 : BitVec 32 := 2#32
  let v19 : BitVec 32 := Scalar.muli v6 c2_i32_13
  let v20 : BitVec 32 := Scalar.addi c0_i32_14 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v21 : BitVec 32 := Scalar.muli v5 c1_i32_15
  let v22 : BitVec 32 := Scalar.addi v20 v21
  v22.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  inb_S2x1x256_S1x1x256_0_0_0 : ∀ a, (![0, 0, 0] : Fin 3 → Nat) a + S1x1x256.size a ≤ S2x1x256.size a
  h_S1x1x256 : 0 < S1x1x256.numel
  shapeCasts_S1x1x256_S1x256 : S1x1x256.ShapeCasts S1x256
  shapeCasts_S1x256_S1x1x256 : S1x256.ShapeCasts S1x1x256
  inb_S2x1x256_S1x1x256_1_0_0 : ∀ a, (![1, 0, 0] : Fin 3 → Nat) a + S1x1x256.size a ≤ S2x1x256.size a
  squeezes_S1x1x256_S1x256 : S1x1x256.Squeezes S1x256
  inb_S1x256_S1x256_0_0 : ∀ a, (![0, 0] : Fin 2 → Nat) a + S1x256.size a ≤ S1x256.size a
  h_S1x256 : 0 < S1x256.numel
  hcc0_scratch1 : 2 + S_.numel ≤ 4
  hcc0_scratch2 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x512 : Shape := ⟨2, ![1024, 512]⟩
abbrev S_ : Shape := ⟨0, ![]⟩
abbrev S512 : Shape := ⟨1, ![512]⟩
abbrev S1x512 : Shape := ⟨2, ![1, 512]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S_, .f32⟩
  | .hbm, ⟨2, _⟩ => ⟨S512, .f32⟩
  | .hbm, ⟨3, _⟩ => ⟨S1x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S1024x512_S512_d0 : S1024x512.ReducesTo [0] S512
  h_S_ : 0 < S_.numel
  bcast_S512_S1x512_1 : S512.BroadcastsInDim S1x512 (![1] : Fin 1 → Fin S1x512.rank)

variable [Facts₀]

class Facts : Prop extends Facts₀ where

variable [Facts]
-- ==== Proof.RefRun.lean ====
/-
  The reference's run: the host program computes, on one device, the column maxima of the whole array
  (a max-reduce over the rows from −∞) and lays them out as one row.  Its frame is that run with the
  value dropped.
-/
import proofs.«900932_g7700000000000933_dist_max_ax0_xy_m512_n256_v7x_xy2x2_f32_1_alg».proof.Defs
import proofs.«900932_g7700000000000933_dist_max_ax0_xy_m512_n256_v7x_xy2x2_f32_1_alg».proof.Proof.Gen.ReferenceIdeal
import proofs.«900932_g7700000000000933_dist_max_ax0_xy_m512_n256_v7x_xy2x2_f32_1_alg».proof.Proof.Gen.Pre_finite_inputs_ReferenceIdeal
import proofs.«900932_g7700000000000933_dist_max_ax0_xy_m512_n256_v7x_xy2x2_f32_1_alg».proof.Proof.Gen.ReferenceIdeal.Run
import proofs.«900932_g7700000000000933_dist_max_ax0_xy_m512_n256_v7x_xy2x2_f32_1_alg».proof.Proof.Gen.ReferenceIdeal.Read

noncomputable section

namespace Cert.Proof.RefRun

open Idealize.ShloMosaic Idealize.ShloMosaic.TcCoe Idealize.SL.Sem

/-- The reference terminates, faults nowhere and leaves its argument array as it found it. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefRun

end
-- ==== Proof.MaxValue.lean ====
/-
  The value equation.  Device `c` of the 2 × 2 mesh sits at (c / 2, c % 2) and holds the block of the
  whole array `X` at those block coordinates (512 rows by 256 columns).  Its result row is the
  entrywise maximum of two rows: the column maxima of its own block and the column maxima of the
  block of the device with the other first coordinate (same columns, the other 512 rows).  The
  reference's row holds, at column `j`, the maximum of column `j` of `X` over all 1024 rows.  The
  maximum over 1024 rows is the maximum of the maxima over the two halves, so device `c`'s row is
  the stretch of 256 columns of the reference's row at block coordinate c % 2.
-/
import proofs.«900932_g7700000000000933_dist_max_ax0_xy_m512_n256_v7x_xy2x2_f32_1_alg».proof.Defs
import proofs.«900932_g7700000000000933_dist_max_ax0_xy_m512_n256_v7x_xy2x2_f32_1_alg».proof.Proof.Gen.KernelIdeal.Skeleton
import proofs.«900932_g7700000000000933_dist_max_ax0_xy_m512_n256_v7x_xy2x2_f32_1_alg».proof.Proof.Gen.ReferenceIdeal.Run
import proofs.«900932_g7700000000000933_dist_max_ax0_xy_m512_n256_v7x_xy2x2_f32_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws

noncomputable section

namespace Cert.Proof.MaxValue

open Idealize.ShloMosaic Idealize.ShloMosaic.TcCoe Idealize.SL.Sem

/-- The reference's result row as a function of the whole array (the term its run states). -/
def refRow (X : (⟨Cert.ReferenceIdeal.S1024x512, .f32⟩ : BufTy).Contents (Elt Ideal)) :
    (⟨Cert.ReferenceIdeal.S1x512, .f32⟩ : BufTy).Contents (Elt Ideal) :=
  Cert.ReferenceIdeal.Read.val_main_v1 (F := Ideal) X

/-- Device `c`'s block of the whole array. -/
def blk (X : (⟨Cert.ReferenceIdeal.S1024x512, .f32⟩ : BufTy).Contents (Elt Ideal)) (c : Fin 4) :
    Vec Ideal Cert.KernelIdeal.S512x256 .f32 :=
  Layout.blockN ⟨2, ![512, 256]⟩ ⟨2, ![1024, 512]⟩ (Layout.meshBlock [2, 2] ![[0], [1]] c) X

/-- The maximum over 1024 rows is the maximum of the maxima over the two halves of 512 rows, in either
    order of the halves: `p` runs over the half at block coordinate `a`, `q` over the other one. -/
theorem fold_max_halves {α : Type} [LinearOrder α] (b : α) (g : Fin 1024 → α) (p q : Fin 512 → α) (a a' : Nat)
    (ha : a + a' = 1)
    (hp : ∀ (k : Fin 512) (r : Fin 1024), r.val = a * 512 + k.val → p k = g r)
    (hq : ∀ (k : Fin 512) (r : Fin 1024), r.val = a' * 512 + k.val → q k = g r) :
    max ((Finset.univ : Finset (Fin 512)).fold max b p) ((Finset.univ : Finset (Fin 512)).fold max b q)
      = (Finset.univ : Finset (Fin 1024)).fold max b g := by
  apply le_antisymm
  · refine max_le ?_ ?_
    · refine (Finset.fold_max_le _).2 ⟨(Finset.le_fold_max _).2 (Or.inl le_rfl), fun k _ => ?_⟩
      have hr : a * 512 + k.val < 1024 := by have := k.isLt; omega
      exact (Finset.le_fold_max _).2 (Or.inr ⟨⟨a * 512 + k.val, hr⟩, Finset.mem_univ _, le_of_eq (hp k _ rfl)⟩)
    · refine (Finset.fold_max_le _).2 ⟨(Finset.le_fold_max _).2 (Or.inl le_rfl), fun k _ => ?_⟩
      have hr : a' * 512 + k.val < 1024 := by have := k.isLt; omega
      exact (Finset.le_fold_max _).2 (Or.inr ⟨⟨a' * 512 + k.val, hr⟩, Finset.mem_univ _, le_of_eq (hq k _ rfl)⟩)
  · refine (Finset.fold_max_le _).2 ⟨le_max_of_le_left ((Finset.le_fold_max _).2 (Or.inl le_rfl)), fun r _ => ?_⟩
    have hr := r.isLt
    rcases (show (a = 0 ∧ a' = 1) ∨ (a = 1 ∧ a' = 0) by omega) with ⟨h0, h1⟩ | ⟨h1, h0⟩
    · by_cases hlt : r.val < 512
      · exact le_max_of_le_left ((Finset.le_fold_max _).2 (Or.inr ⟨⟨r.val, hlt⟩, Finset.mem_univ _,
          le_of_eq (hp ⟨r.val, hlt⟩ r (by rw [h0]; simp)).symm⟩))
      · exact le_max_of_le_right ((Finset.le_fold_max _).2 (Or.inr ⟨⟨r.val - 512, by omega⟩, Finset.mem_univ _,
          le_of_eq (hq ⟨r.val - 512, by omega⟩ r (by rw [h1]; simp only []; omega)).symm⟩))
    · by_cases hlt : r.val < 512
      · exact le_max_of_le_right ((Finset.le_fold_max _).2 (Or.inr ⟨⟨r.val, hlt⟩, Finset.mem_univ _,
          le_of_eq (hq ⟨r.val, hlt⟩ r (by rw [h0]; simp)).symm⟩))
      · exact le_max_of_le_left ((Finset.le_fold_max _).2 (Or.inr ⟨⟨r.val - 512, by omega⟩, Finset.mem_univ _,
          le_of_eq (hp ⟨r.val - 512, by omega⟩ r (by rw [h1]; simp only []; omega)).symm⟩))

/-- Where the four devices sit: device `c` has first mesh coordinate `c / 2` and second `c % 2`. -/
theorem mesh_coords : ∀ c : Fin 4, Layout.meshLin [2, 2] c.val [0] = c.val / 2
    ∧ Layout.meshLin [2, 2] c.val [1] = c.val % 2 ∧ Layout.meshLin [2, 2] c.val [] = 0 := by decide

/-- The entrywise maximum of two rows given as [1, 1, 256] blocks, read at a column. -/
theorem pay1_apply (u w : Vec Ideal Cert.KernelIdeal.S1x1x256 .f32) (i : Cert.KernelIdeal.S1x256.Idx) :
    Cert.KernelIdeal.Gen.k0_pay1 (F := Ideal) u w i
      = max (u (Fin.cons ⟨0, Nat.one_pos⟩ i)) (w (Fin.cons ⟨0, Nat.one_pos⟩ i)) := by
  unfold Cert.KernelIdeal.Gen.k0_pay1
  show max (shapeCast Cert.KernelIdeal.S1x256 u _ i) (shapeCast Cert.KernelIdeal.S1x256 w _ i) = _
  rw [shapeCast_dropUnit_apply, shapeCast_dropUnit_apply]

/-- The column maxima of a 512 × 256 block, read at column `t`: the maximum from −∞ over the 512 rows. -/
theorem pay2_apply (v : Vec Ideal Cert.KernelIdeal.S512x256 .f32) (j : Cert.KernelIdeal.S1x1x256.Idx) (t : Fin 256)
    (ht : (j 2).val = t.val) :
    Cert.KernelIdeal.Gen.k0_pay2 (F := Ideal) v j
      = (Finset.univ : Finset (Fin 512)).fold max (Ideal.ofBits .f32 0xFF800000#32) (fun k => v (ValueIdx.ix2 k t)) := by
  unfold Cert.KernelIdeal.Gen.k0_pay2
  dsimp only
  refine (shapeCast_addUnit_apply _ _ _ _).trans ?_
  refine (shapeCast_addUnit_apply _ _ _ _).trans ?_
  refine (Ideal.multiReduction_maximumf_single _ _ _ _ _ _).trans ?_
  rw [shapeCast_self]
  refine congrArg (fun f => Finset.fold max _ f Finset.univ) (funext fun k => congrArg v ?_)
  funext a
  apply Fin.ext
  match a with
  | ⟨0, _⟩ => rfl
  | ⟨1, _⟩ => exact ht

/-- The reference's row read at column `t`: the maximum from −∞ of column `t` of the whole array over its
    1024 rows. -/
theorem refRow_apply (X : (⟨Cert.ReferenceIdeal.S1024x512, .f32⟩ : BufTy).Contents (Elt Ideal))
    (i : Cert.ReferenceIdeal.S1x512.Idx) (t : Fin 512) (ht : (i 1).val = t.val) :
    refRow X i
      = (Finset.univ : Finset (Fin 1024)).fold max (Ideal.ofBits .f32 0xFF800000#32) (fun r => X (ValueIdx.ix2 r t)) := by
  unfold refRow
  rw [Cert.ReferenceIdeal.Read.val_main_v1_apply]
  unfold Cert.ReferenceIdeal.Read.val_main_v0
  have h : Shape.Reduces Cert.ReferenceIdeal.S1024x512 [0] Cert.ReferenceIdeal.S512 := by decide
  have e := Host.reduce_eq_fold_single (s := Cert.ReferenceIdeal.S1024x512) (t := Cert.ReferenceIdeal.S512)
    (a := 0) (α := Ideal .f32) (FloatOps.maximumf (F := Ideal) (φ := .f32)) X
    (Cert.ReferenceIdeal.Read.val_main_cst (F := Ideal)) Cert.ReferenceIdeal.Gen.reducesTo_S1024x512_S512_d0 h
    Cert.ReferenceIdeal.Gen.h_S_ (Cert.ReferenceIdeal.Read.idx_main_v1 i)
  refine e.trans ?_
  refine congrArg (fun f => Finset.fold max (Ideal.ofBits .f32 0xFF800000#32) f (Finset.univ : Finset (Fin 1024)))
    (funext fun r => congrArg X ?_)
  funext a
  apply Fin.ext
  match a with
  | ⟨0, _⟩ => rfl
  | ⟨1, _⟩ => exact ht

/-- The entrywise maximum of the column maxima of device `c`'s block and of its peer's block (the device
    `c'` with the other first mesh coordinate) is device `c`'s stretch of the reference's row. -/
theorem out_block (X : (⟨Cert.ReferenceIdeal.S1024x512, .f32⟩ : BufTy).Contents (Elt Ideal)) (c c' : Fin 4)
    (hc' : c'.val = (c.val % 2 + 2) - 2 * (c.val / 2)) :
    Cert.KernelIdeal.Gen.k0_pay1 (F := Ideal) (Cert.KernelIdeal.Gen.k0_pay2 (F := Ideal) (blk X c))
        (Cert.KernelIdeal.Gen.k0_pay2 (F := Ideal) (blk X c'))
      = Layout.blockN ⟨2, ![1, 256]⟩ ⟨2, ![1, 512]⟩ (Layout.meshBlock [2, 2] ![[], [1]] c) (refRow X) := by
  funext i
  have hi1 := ValueIdx.idx2_lt1 i
  have hc := c.isLt
  obtain ⟨m0, m1, _⟩ := mesh_coords c
  obtain ⟨m0', m1', _⟩ := mesh_coords c'
  rw [pay1_apply, pay2_apply (blk X c) _ ⟨(i 1).val, hi1⟩ rfl, pay2_apply (blk X c') _ ⟨(i 1).val, hi1⟩ rfl,
    Layout.blockN_apply,
    refRow_apply X _ ⟨c.val % 2 * 256 + (i 1).val, by omega⟩ (by
      show Layout.meshLin [2, 2] c.val [1] * 256 + (i 1).val = _
      rw [m1])]
  refine fold_max_halves _ _ _ _ (c.val / 2) (c'.val / 2) (by omega) (fun k r hr => ?_) (fun k r hr => ?_)
  · unfold blk
    rw [Layout.blockN_apply]
    refine congrArg X ?_
    funext a
    apply Fin.ext
    match a with
    | ⟨0, _⟩ =>
      show Layout.meshLin [2, 2] c.val [0] * 512 + k.val = r.val
      rw [m0, hr]
    | ⟨1, _⟩ =>
      show Layout.meshLin [2, 2] c.val [1] * 256 + (i 1).val = c.val % 2 * 256 + (i 1).val
      rw [m1]
  · unfold blk
    rw [Layout.blockN_apply]
    refine congrArg X ?_
    funext a
    apply Fin.ext
    match a with
    | ⟨0, _⟩ =>
      show Layout.meshLin [2, 2] c'.val [0] * 512 + k.val = r.val
      rw [m0', hr]
    | ⟨1, _⟩ =>
      show Layout.meshLin [2, 2] c'.val [1] * 256 + (i 1).val = c.val % 2 * 256 + (i 1).val
      rw [m1']
      omega

end Cert.Proof.MaxValue

end
-- ==== Proof.KernelProto.lean ====
/-
  The cross-device protocol of the column-maximum kernel on the 2 × 2 mesh, as data for the rounds discipline.

  Device `c` sits at mesh coordinates (c / 2, c % 2); its PEER is the device with the other first coordinate
  and the same second one.  `peer` is an involution without fixed points: the mesh falls into two pairs.
  Each device
    · signals its peer's barrier cell (one unit), handing over the right to write SLOT 1 of its own
      scratch buffer together with the fact that its receive cell stands at round 0;
    · stores the column maxima of its block into SLOT 0 of its scratch;
    · waits for one unit on its own barrier cell: its peer is inside the kernel, and the peer's slot 1 is now
      this device's to write;
    · copies its slot 0 into the peer's slot 1, crediting its own send cell and the peer's receive cell;
    · waits on its send cell (slot 0 is read out and comes back) and on its receive cell (slot 1 now holds
      the peer's column maxima);
    · stores the entrywise maximum of the two slots as its result.
  Every cell has ONE round with ONE duty.  A device waits on its barrier cell while it still owes its peer's
  receive cell; receive cells therefore sit above barrier cells in the order of levels, and nothing is owed
  at the two later waits.
-/
import proofs.«900932_g7700000000000933_dist_max_ax0_xy_m512_n256_v7x_xy2x2_f32_1_alg».proof.Proof.Gen.Kernel
import proofs.«900932_g7700000000000933_dist_max_ax0_xy_m512_n256_v7x_xy2x2_f32_1_alg».proof.Proof.Gen.Kernel.Skeleton
import proofs.«900932_g7700000000000933_dist_max_ax0_xy_m512_n256_v7x_xy2x2_f32_1_alg».proof.Proof.Gen.Kernel.Launch
import Idealize.ShloMosaic.Lib.Pipeline.Launch
import Idealize.ShloMosaic.Lib.Pipeline.Kit
import Idealize.ShloMosaic.Lib.Tactic
import Idealize.ShloMosaic.Lib.Writes

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy, and a second copy for the kernel's three cells -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The peer -/

/-- The device with the other first mesh coordinate: 0 ↔ 2, 1 ↔ 3. -/
def peer (c : Dev nD) : Dev nD := ⟨(c.val % 2 + 2) - 2 * (c.val / 2), by show _ < 4; have h : c.val < 4 := c.isLt; omega⟩

theorem peer_peer (c : Dev nD) : peer (peer c) = c := by revert c; decide

/-- Both device chains of the kernel (the signal's and the copy's) name the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def swap : Dev nD ≃ Dev nD := ⟨peer, peer, peer_peer, peer_peer⟩

/-! ## Memrefs and cells -/

abbrev xM : Memref sig .tc .vmem S512x256 .f32 := Memref.whole cc0_stg0_0
abbrev oM : Memref sig .tc .vmem S1x256 .f32 := Memref.whole cc0_stg1_0
abbrev sM : Memref sig .tc .vmem S2x1x256 .f32 := Memref.whole cc0_scratch0

/-- The two slots of the scratch buffer as rectangles, -/
abbrev rc0 : Rect S2x1x256 := Rect.unit (s := S2x1x256) ![0, 0, 0] S1x1x256.size inb_S2x1x256_S1x1x256_0_0_0
abbrev rc1 : Rect S2x1x256 := Rect.unit (s := S2x1x256) ![1, 0, 0] S1x1x256.size inb_S2x1x256_S1x1x256_1_0_0
/-- and as the rows the copy moves. -/
abbrev slot0 : Memref sig .tc .vmem S1x256 .f32 := (sM.slice rc0 (fun _ => rfl)).squeeze S1x256 squeezes_S1x1x256_S1x256
abbrev slot1 : Memref sig .tc .vmem S1x256 .f32 := (sM.slice rc1 (fun _ => rfl)).squeeze S1x256 squeezes_S1x1x256_S1x256

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them, -/
abbrev osem : Fin 2 → SemLoc sig := fun | 0 => .dma sendS.sem | 1 => .dma recvS.sem
/-- and all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (slot1 : Memref sig .tc .vmem S1x256 .f32).view.dmaCredit
theorem N_pos : 0 < N := View.dmaCredit_pos _ (by decide)

/-! ## Contents -/

/-- Device `c`'s block of the input, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The column maxima of device `c`'s block: what it stores into slot 0. -/
def mx (c : Dev nD) : Vec F S1x1x256 .f32 := k0_pay2 (xstg m ρ c)

/-- The result: the entrywise maximum of its own column maxima and its peer's. -/
def outAt (c : Dev nD) : (cc0_stg1_0 : Ref sig .tc).ty.Contents (Elt F) := k0_pay1 (mx m ρ c) (mx m ρ (peer c))

abbrev SBuf (c : Dev nD) : Type := Buf (Elt F) ((sM : Memref sig .tc .vmem S2x1x256 .f32).view.loc (c : Thread nD τ))

def slot0Pts (c : Dev nD) (g : SBuf (F := F) c) : sProp 𝕄 :=
  (slot0 : Memref sig .tc .vmem S1x256 .f32).view.loc (c : Thread nD τ) ↦[(slot0 : Memref sig .tc .vmem S1x256 .f32).view.set]{fullShare} g
def slot1Pts (c : Dev nD) (g : SBuf (F := F) c) : sProp 𝕄 :=
  (slot1 : Memref sig .tc .vmem S1x256 .f32).view.loc (c : Thread nD τ) ↦[(slot1 : Memref sig .tc .vmem S1x256 .f32).view.set]{fullShare} g

omit [FloatOps F] in
instance slot0Pts_storable (c : Dev nD) (g) : BI.Storable (upEmb : UEmb _ 𝕄) (slot0Pts (F := F) c g) := by unfold slot0Pts; infer_instance
omit [FloatOps F] in
instance slot1Pts_storable (c : Dev nD) (g) : BI.Storable (upEmb : UEmb _ 𝕄) (slot1Pts (F := F) c g) := by unfold slot1Pts; infer_instance

/-! ## The schedule -/

/-- What the peer's signal hands the owner of a barrier cell: the peer's slot 1, to write, and that the peer's receive
    cell stands at round 0. -/
def barPay (c : Dev nD) : sProp 𝕄 := iprop((∃ f, slot1Pts (peer c) f) ∗ reached ER (recvCell (peer c)) 0)
/-- What the send cell's landing hands back: slot 0, still reading as the device's column maxima. -/
def sendPay (c : Dev nD) : sProp 𝕄 :=
  iprop(∃ g : SBuf (F := F) c, ⌜(sM.access rc0 : View sig .tc _ _ _).read (Elt F) g = mx m ρ c⌝ ∗ slot0Pts c g)
/-- What the receive cell's landing hands over: slot 1, reading as the peer's column maxima. -/
def recvPay (c : Dev nD) : sProp 𝕄 :=
  iprop(∃ g : SBuf (F := F) c, ⌜(sM.access rc1 : View sig .tc _ _ _).read (Elt F) g = mx m ρ (peer c)⌝ ∗ slot1Pts c g)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, one duty on each of a device's three cells: the barrier's of one unit, the send's and the
    receive's of the row's credit. -/
def sched : Rounds.Schedule (GSem nD τ sig) Unit 𝕄 where
  duties g r := if r = 0 ∧ IsBar g then {()} else if r = 0 ∧ IsXfer g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem not_bar_send : ¬ IsBar (sendCell c) := fun h => send_ne_bar h.2
theorem not_bar_recv : ¬ IsBar (recvCell c) := fun h => recv_ne_bar h.2

theorem duties_bar : (sched (F := F) m ρ).duties (barCell c) 0 = {()} := by dsimp only [sched]; exact if_pos ⟨rfl, rfl, rfl⟩
theorem duties_send : (sched (F := F) m ρ).duties (sendCell c) 0 = {()} := by
  dsimp only [sched]; rw [if_neg (fun h => not_bar_send c h.2)]; exact if_pos ⟨rfl, rfl, .inl rfl⟩
theorem duties_recv : (sched (F := F) m ρ).duties (recvCell c) 0 = {()} := by
  dsimp only [sched]; rw [if_neg (fun h => not_bar_recv c h.2)]; exact if_pos ⟨rfl, rfl, .inr rfl⟩
theorem duties_later (g : GSem nD τ sig) : ∀ r, 1 ≤ r → (sched (F := F) m ρ).duties g r = ∅ :=
  fun r hr => by dsimp only [sched]; rw [if_neg fun h => by omega, if_neg fun h => by omega]

theorem amount_bar (d : Unit) : (sched (F := F) m ρ).amount (barCell c) 0 d = 1 := by dsimp only [sched]; exact if_pos rfl
theorem amount_send (d : Unit) : (sched (F := F) m ρ).amount (sendCell c) 0 d = N := by dsimp only [sched]; exact if_neg send_ne_bar
theorem amount_recv (d : Unit) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Unit) : (sched (F := F) m ρ).payload (barCell c) 0 d = barPay c := by dsimp only [sched]; rw [if_pos rfl]
theorem payload_send (d : Unit) : (sched (F := F) m ρ).payload (sendCell c) 0 d = sendPay m ρ c := by
  dsimp only [sched]; rw [if_neg send_ne_bar, if_neg send_ne_recv, if_pos rfl]
theorem payload_recv (d : Unit) : (sched (F := F) m ρ).payload (recvCell c) 0 d = recvPay m ρ c := by
  dsimp only [sched]; rw [if_neg recv_ne_bar, if_pos rfl]

/-- The rest of each cell's round, no duty taken yet, is the one duty's payload. -/
theorem rest_bar : bigSep ((sched (F := F) m ρ).duties (barCell c) 0 \ ∅) (fun d => (sched (F := F) m ρ).payload (barCell c) 0 d) = barPay c := by
  rw [Finset.sdiff_empty, duties_bar, bigSep_singleton, payload_bar]
theorem rest_send : bigSep ((sched (F := F) m ρ).duties (sendCell c) 0 \ ∅) (fun d => (sched (F := F) m ρ).payload (sendCell c) 0 d) = sendPay m ρ c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Sched

/-! ## What each device owes at launch; the levels -/

/-- Device `c` owes its peer's receive cell the row's credit (its copy) and its peer's barrier cell one unit (its
    signal, paid first: the last summand). -/
def O₁ (c : Dev nD) : CellTallies nD τ sig Unit := tallyAt (recvCell (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A staging wait (or the send wait) sits at level 0, below everything a device can owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its peer's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The invariants of the cells device `c`'s body opens, at the names `K` the launch allocated them under: its own three,
    its peer's barrier cell (its signal) and its peer's receive cell (its copy). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (peer c, 0)) (barCell (peer c)) ∗ cellInv ER (sched m ρ) (K (peer c, 2)) (recvCell (peer c)))

instance invs_persistent (K : Dev nD × Fin 3 → ℕ) (c : Dev nD) : BI.Persistent (invs m ρ K c) := by unfold invs; infer_instance

/-- The ghost state device `c` starts from: the invariants; its positions at round 0 of its three cells; that round 0 is
    reached on the cells it pays and on its own send and receive cells; the three duty tokens it pays with (its peer's
    barrier duty, its peer's receive duty, its own send duty). -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What a device's body starts from besides its buffers: the ghost state at some names, the credit for its two waits others
    pay (one unit of its barrier cell, the row's credit of its receive cell) and the level facts. -/
def start (c : Dev nD) : sProp 𝕄 :=
  iprop((∃ K, ghost m ρ K c) ∗ cred (tallyAt (barCell c) () 1) ∗ cred (tallyAt (recvCell c) () N) ∗ levAts L lv)

def scrWhole (c : Dev nD) (f : SBuf (F := F) c) : sProp 𝕄 := (((c : Thread nD τ).loc cc0_scratch0) ↦{fullShare} f : sProp 𝕄)

def Φ₀ (c : Dev nD) : sProp 𝕄 := iprop(start m ρ c ∗ ∃ f, scrWhole c f)
/-- After the point: the scratch buffer whole again, the two own cells at zero and closed. -/
def Φ₁ (c : Dev nD) : sProp 𝕄 := iprop((∃ f, scrWhole (F := F) c f) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelProof

end
-- ==== Proof.KernelBody.lean ====
/-
  One device's body, stepped from the protocol's ghost state.

  The scratch buffer is held in three parts: slot 1 (handed to the peer with the signal, and received back,
  written, from the receive cell), slot 0 (kept, stored into, lent to the copy and received back from the send
  cell) and whatever else the buffer has (nothing, but no step needs to know that).  Reading a slot after the
  copy: a row written through the squeezed view of slot 1 and read through slot 1's rectangle is the row read
  through slot 0's rectangle at the source.
-/
import proofs.«900932_g7700000000000933_dist_max_ax0_xy_m512_n256_v7x_xy2x2_f32_1_alg».proof.Proof.KernelProto

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots' element sets -/

abbrev I0 : Finset (Idx ((sM : Memref sig .tc .vmem S2x1x256 .f32).view.loc ((0 : Dev nD) : Thread nD τ))) := (slot0 : Memref sig .tc .vmem S1x256 .f32).view.set
abbrev I1 : Finset (Idx ((sM : Memref sig .tc .vmem S2x1x256 .f32).view.loc ((0 : Dev nD) : Thread nD τ))) := (slot1 : Memref sig .tc .vmem S1x256 .f32).view.set

theorem slot0_set : (slot0 : Memref sig .tc .vmem S1x256 .f32).view.set = ((sM : Memref sig .tc .vmem S2x1x256 .f32).access rc0 : View sig .tc _ _ _).set :=
  View.set_reshape _ _
theorem slot1_set : (slot1 : Memref sig .tc .vmem S1x256 .f32).view.set = ((sM : Memref sig .tc .vmem S2x1x256 .f32).access rc1 : View sig .tc _ _ _).set :=
  View.set_reshape _ _

/-- The two slots share no element. -/
theorem slots_disjoint : Disjoint (slot0 : Memref sig .tc .vmem S1x256 .f32).view.set (slot1 : Memref sig .tc .vmem S1x256 .f32).view.set := by
  rw [slot0_set, slot1_set]
  exact View.disjoint_slice_of_disj _ rc0 rc1 (by decide)

theorem slot0_sub : (slot0 : Memref sig .tc .vmem S1x256 .f32).view.set ⊆ Finset.univ \ (slot1 : Memref sig .tc .vmem S1x256 .f32).view.set :=
  Finset.subset_sdiff.mpr ⟨Finset.subset_univ _, slots_disjoint⟩

/-! ## Reading the slots -/

omit [FloatOps F] in
/-- What was stored through slot 0's rectangle reads back through it. -/
theorem read_store0 (f : (cc0_scratch0 : Ref sig .tc).ty.Contents (Elt F)) (w : Vec F S1x1x256 .f32) :
    ((sM : Memref sig .tc .vmem S2x1x256 .f32).access rc0 : View sig .tc _ _ _).read (Elt F)
      (((sM : Memref sig .tc .vmem S2x1x256 .f32).access rc0 : View sig .tc _ _ _).write (Elt F) f w Finset.univ) = w :=
  View.read_write_univ _ _

omit [FloatOps F] in
/-- The row the copy lands in slot 1, read through slot 1's rectangle, is the source read through slot 0's. -/
theorem read_landed (fd fs : (cc0_scratch0 : Ref sig .tc).ty.Contents (Elt F)) :
    ((sM : Memref sig .tc .vmem S2x1x256 .f32).access rc1 : View sig .tc _ _ _).read (Elt F)
      ((slot1 : Memref sig .tc .vmem S1x256 .f32).view.write (Elt F) fd ((slot0 : Memref sig .tc .vmem S1x256 .f32).view.read (Elt F) fs) Finset.univ)
      = ((sM : Memref sig .tc .vmem S2x1x256 .f32).access rc0 : View sig .tc _ _ _).read (Elt F) fs := by
  show (((sM : Memref sig .tc .vmem S2x1x256 .f32).view.slice rc1)).read (Elt F)
      ((((sM : Memref sig .tc .vmem S2x1x256 .f32).view.slice rc1).reshape S1x256 squeezes_S1x1x256_S1x256.numel_eq).write (Elt F) fd
        ((((sM : Memref sig .tc .vmem S2x1x256 .f32).view.slice rc0).reshape S1x256 squeezes_S1x1x256_S1x256.numel_eq).read (Elt F) fs) Finset.univ) = _
  rw [View.write_reshape_univ, View.read_write_univ]
  funext x
  rw [View.read_apply, View.read_apply]
  simp only [View.emb_reshape, Function.Embedding.trans_apply, Equiv.coe_toEmbedding, Equiv.apply_symm_apply]

/-! ## The staging buffers' accesses -/

abbrev r512 : Rect S512x256 := Rect.unit (s := S512x256) ![0, 0] S512x256.size inb_S512x256_S512x256_0_0
abbrev r1 : Rect S1x256 := Rect.unit (s := S1x256) ![0, 0] S1x256.size inb_S1x256_S1x256_0_0

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x256 .f32).view.readAt (Elt F) r512.toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S1x256 .f32).access r1 : View sig .tc _ _ _).write (Elt F) f w Finset.univ = w :=
  Memref.write_access_unit_zero_univ (Elt F) cc0_stg1_0 hz2 _ f w

/-! ## The body -/

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell c) () N) ∗ levAts L lv ∗ ∃ f, scrWhole (F := F) c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

/-- The barrier duty's payload spelt out, at a device's own cell and at its peer's (where the peer's peer is the device). -/
theorem payload_bar_own (c : Dev nD) (d : Unit) : (sched (F := F) m ρ).payload (barCell c) 0 d
    = iprop((∃ f : SBuf (F := F) (peer c), (slot1 : Memref sig .tc .vmem S1x256 .f32).view.loc ((peer c : Dev nD) : Thread nD τ) ↦[(slot1 : Memref sig .tc .vmem S1x256 .f32).view.set]{fullShare} f)
        ∗ reached ER (recvCell (peer c)) 0) := by
  rw [payload_bar]; rfl
theorem payload_bar_peer (c : Dev nD) (d : Unit) : (sched (F := F) m ρ).payload (barCell (peer c)) 0 d
    = iprop((∃ f : SBuf (F := F) c, (slot1 : Memref sig .tc .vmem S1x256 .f32).view.loc ((c : Dev nD) : Thread nD τ) ↦[(slot1 : Memref sig .tc .vmem S1x256 .f32).view.set]{fullShare} f)
        ∗ reached ER (recvCell c) 0) := by
  rw [payload_bar]; unfold barPay slot1Pts; rw [peer_peer]

attribute [local sl_rounds] duties_bar duties_send duties_recv amount_bar amount_send amount_recv expect_bar expect_send expect_recv
  payload_bar_peer payload_send payload_recv

omit [FloatOps F] in
theorem xPts_eq (c : Dev nD) (f : (cc0_stg0_0 : Ref sig .tc).ty.Contents (Elt F)) :
    ((xM : Memref sig .tc .vmem S512x256 .f32).view.loc (c : Thread nD τ) ↦[(xM : Memref sig .tc .vmem S512x256 .f32).view.set]{fullShare} f : sProp 𝕄)
      = (((c : Thread nD τ).loc cc0_stg0_0) ↦{fullShare} f : sProp 𝕄) := by rw [View.set_whole]
omit [FloatOps F] in
theorem oPts_eq (c : Dev nD) (f : (cc0_stg1_0 : Ref sig .tc).ty.Contents (Elt F)) :
    ((oM : Memref sig .tc .vmem S1x256 .f32).view.loc (c : Thread nD τ) ↦[(oM : Memref sig .tc .vmem S1x256 .f32).view.set]{fullShare} f : sProp 𝕄)
      = (((c : Thread nD τ).loc cc0_stg1_0) ↦{fullShare} f : sProp 𝕄) := by rw [View.set_whole]

set_option maxHeartbeats 1600000 in
/-- The copy of slot 0 into the peer's slot 1 under the rounds discipline: the send duty of the device's own send cell hands
    slot 0 back, still reading as its column maxima; the receive duty of the peer's receive cell hands the peer its slot 1
    reading as those maxima (the device is its peer's peer). The device the copy names is substituted, not rewritten. -/
theorem wp_send_k (c n : Dev nD) (hn : n = peer c)
    {hsc : (slot1 : Memref sig (Dev.tc n : Thread nD τ).2.kind .vmem S1x256 .f32).view.ref.isScScratch = false}
    {hsrc : (slot0 : Memref sig .tc .vmem S1x256 .f32).view.WordExact} {hdst : (slot1 : Memref sig .tc .vmem S1x256 .f32).view.WordExact}
    {hsem : DmaTarget.Typed .vmem (.dma recvS.sem) (.remote (Dev.tc n : Thread nD τ) (slot1 : Memref sig .tc .vmem S1x256 .f32) (.dma sendS.sem) hsc)}
    {α : Type} {Q : α → sProp 𝕄} {k : PUnit → Prog (TpuEff nD τ sig (Elt F) Λ₀ .tc) α}
    (fs : SBuf (F := F) c) (hfs : ((sM : Memref sig .tc .vmem S2x1x256 .f32).access rc0 : View sig .tc _ _ _).read (Elt F) fs = mx m ρ c)
    (fd : SBuf (F := F) (peer c)) (W : Waits sig Unit) :
    iprop(cellInv ER (sched m ρ) (K (c, 1)) (sendCell c) ∗ cellInv ER (sched m ρ) (K (peer c, 2)) (recvCell (peer c))
        ∗ slot0Pts c fs ∗ slot1Pts (peer c) fd
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot1 (.dma sendS.sem) hsc) (.dma recvS.sem) hsrc hdst hsem) k) Q) := by
  subst hn
  unfold slot0Pts slot1Pts
  exact Rounds.wp_send_pointsTo 𝒱₀ ER (sched m ρ) (c : Thread nD τ) none (c' := ((peer c : Dev nD) : Thread nD τ))
    (src := (slot0 : Memref sig .tc .vmem S1x256 .f32)) (dst := (slot1 : Memref sig .tc .vmem S1x256 .f32)) (q := fullShare)
    (κ₁ := K (c, 1)) (κ₂ := K (peer c, 2))
    (r₁ := 0) (r₂ := 0) (d₁ := ()) (d₂ := ()) (fs := fs) (fd := fd)
    (by rw [duties_send]; exact Finset.mem_singleton_self _) (by rw [duties_recv]; exact Finset.mem_singleton_self _)
    () () N rfl (amount_send m ρ c ()) (amount_recv m ρ (peer c) ()) 0 (by rw [zero_add]) (W := W)
    (by
      rw [payload_send]; unfold sendPay slot0Pts
      iintro H; iexists fs
      isplitr; · ipureintro; exact hfs
      iexact H)
    (by
      rw [payload_recv]; unfold recvPay slot1Pts
      iintro H
      iexists ((slot1 : Memref sig .tc .vmem S1x256 .f32).view.write (Elt F) fd ((slot0 : Memref sig .tc .vmem S1x256 .f32).view.read (Elt F) fs) Finset.univ)
      isplitr; · ipureintro; rw [read_landed, peer_peer]; exact hfs
      iexact H)

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c]
  -- the scratch buffer cut into slot 1, slot 0 and the rest
  unfold scrWhole
  have cut1 := (pointsTo_split_subset (nD := nD) (τ := τ) (sig := sig) (Ix := Unit) (Val := Elt F) (Name := ℕ) (U := UU) (Lvl := ℕ)
    (ℓ := (c : Thread nD τ).loc cc0_scratch0) (q := fullShare) (f := f0)
    (I := (slot1 : Memref sig .tc .vmem S1x256 .f32).view.set) (S := Finset.univ) (Finset.subset_univ _)).1
  have cut0 := (pointsTo_split_subset (nD := nD) (τ := τ) (sig := sig) (Ix := Unit) (Val := Elt F) (Name := ℕ) (U := UU) (Lvl := ℕ)
    (ℓ := (c : Thread nD τ).loc cc0_scratch0) (q := fullShare) (f := f0)
    (I := (slot0 : Memref sig .tc .vmem S1x256 .f32).view.set) (S := Finset.univ \ (slot1 : Memref sig .tc .vmem S1x256 .f32).view.set) slot0_sub).1
  ihave Hsp := cut1 $$ Hscr
  icases Hsp with ⟨Hs1, Hs0r⟩
  ihave Hsp := cut0 $$ Hs0r
  icases Hsp with ⟨Hs0, Hrest⟩
  ihave Hx := (Entails.of_eq (xPts_eq c _).symm) $$ Hx
  ihave Hout := (Entails.of_eq (oPts_eq c _).symm) $$ Hout
  unfold O₀ O₁
  -- the signal to the peer's barrier cell (slot 1 handed over with it) and the load of the block
  sl_exec
  rw [read_x]
  -- slot 0: the load the store is lowered with, then the store of the column maxima
  iapply (wp_load_rect 𝒱₀ (c : Thread nD τ) none Set.univ (m := sM) (r := rc0) (S := (slot0 : Memref sig .tc .vmem S1x256 .f32).view.set)
    (q := fullShare) (f := f0) (by rw [slot0_set])) $$ Hs0
  iintro Hs0
  iapply (wp_store 𝒱₀ (c : Thread nD τ) none Set.univ (m := sM) (r := rc0) (Mk := Finset.univ) (S := (slot0 : Memref sig .tc .vmem S1x256 .f32).view.set)
    (f := f0) (by rw [View.setOn_univ, slot0_set])) $$ Hs0
  iintro Hs0
  -- the wait on the own barrier cell, owing the peer's receive credit: the peer's slot 1 comes with it
  iapply (Rounds.wp_wait_rest_token 𝒱₀ ER (sched m ρ) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn, HscrP⟩, #HrVP'⟩
  -- the copy into the peer's slot 1
  iapply (wp_send_k m ρ K c _ (dev2_eq c)
      (((sM : Memref sig .tc .vmem S2x1x256 .f32).access rc0 : View sig .tc _ _ _).write (Elt F) f0 (k0_pay2 (xstg m ρ c)) Finset.univ)
      (read_store0 f0 (k0_pay2 (xstg m ρ c))) fn (insert (SemLoc.reg barS, ()) W)) $$ [Hs0 HscrP HO HtS HtVP]
  · isplitr; · iexact HIsnd
    isplitr; · iexact HIrcvP
    isplitl [Hs0]; · unfold slot0Pts; iexact Hs0
    isplitl [HscrP]; · iexact HscrP
    isplitl [HO]; · iexact HO
    isplitl [HtS]; · iexact HtS
    isplitr; · iexact HrS
    isplitl [HtVP]; · iexact HtVP
    iexact HrVP
  iintro ⟨HcS, HO⟩
  -- the wait on the send cell: slot 0 back
  iapply (Rounds.wp_wait_rest_token 𝒱₀ ER (sched m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hp := (Entails.of_eq (rest_send m ρ c)) $$ Hpay
  unfold sendPay
  icases Hp with ⟨%g0', %hg0', Hs0⟩
  -- the wait on the receive cell: slot 1, holding the peer's column maxima
  iapply (Rounds.wp_wait_rest_token 𝒱₀ ER (sched m ρ) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hp := (Entails.of_eq (rest_recv m ρ c)) $$ Hpay
  unfold recvPay
  icases Hp with ⟨%g1', %hg1', Hs1⟩
  -- the two own cells close: their counters at zero are the device's again
  imod (Rounds.cell_close ER (sched m ρ) (Set.mem_univ (K (c, 1))) (fun h => h) (R := 0 + 1) (duties_later m ρ (sendCell c))) $$ [HatS] with HzS
  · isplitr; · iexact HIsnd
    iexact HatS
  imod (Rounds.cell_close ER (sched m ρ) (Set.mem_univ (K (c, 2))) (fun h => h) (R := 0 + 1) (duties_later m ρ (recvCell c))) $$ [HatV] with HzV
  · isplitr; · iexact HIrcv
    iexact HatV
  -- the two slots read, the result stored
  unfold slot0Pts slot1Pts
  iapply (wp_load_rect 𝒱₀ (c : Thread nD τ) none Set.univ (m := sM) (r := rc0) (S := (slot0 : Memref sig .tc .vmem S1x256 .f32).view.set)
    (q := fullShare) (f := g0') (by rw [slot0_set])) $$ Hs0
  iintro Hs0
  iapply (wp_load_rect 𝒱₀ (c : Thread nD τ) none Set.univ (m := sM) (r := rc1) (S := (slot1 : Memref sig .tc .vmem S1x256 .f32).view.set)
    (q := fullShare) (f := g1') (by rw [slot1_set])) $$ Hs1
  iintro Hs1
  rw [hg0', hg1']
  iapply (wp_load 𝒱₀ (c : Thread nD τ) none Set.univ (m := oM) (View.setOn_subset_set _ _)) $$ Hout; iintro Hout
  iapply (wp_store 𝒱₀ (c : Thread nD τ) none Set.univ (m := oM) (r := r1) (Mk := Finset.univ)
    (by rw [View.setOn_univ]; exact View.set_slice_subset _ _)) $$ Hout; iintro Hout
  rw [write_out, wp_ret]; imodintro
  -- the scratch buffer put back together
  have join0 := pointsTo_join_subset (nD := nD) (τ := τ) (sig := sig) (Ix := Unit) (Val := Elt F) (Name := ℕ) (U := UU) (Lvl := ℕ)
    (ℓ := (c : Thread nD τ).loc cc0_scratch0) (q := fullShare) (g := g0') (f := f0)
    (I := (slot0 : Memref sig .tc .vmem S1x256 .f32).view.set) (S := Finset.univ \ (slot1 : Memref sig .tc .vmem S1x256 .f32).view.set) slot0_sub
  ihave Hs0r := join0 $$ [Hs0 Hrest]
  · isplitl [Hs0]; · iexact Hs0
    iexact Hrest
  have join1 := pointsTo_join_subset (nD := nD) (τ := τ) (sig := sig) (Ix := Unit) (Val := Elt F) (Name := ℕ) (U := UU) (Lvl := ℕ)
    (ℓ := (c : Thread nD τ).loc cc0_scratch0) (q := fullShare) (g := g1')
    (f := ((slot0 : Memref sig .tc .vmem S1x256 .f32).view.set).piecewise g0' f0)
    (I := (slot1 : Memref sig .tc .vmem S1x256 .f32).view.set) (S := Finset.univ) (Finset.subset_univ _)
  ihave Hscr := join1 $$ [Hs1 Hs0r]
  · isplitl [Hs1]; · iexact Hs1
    iexact Hs0r
  ihave Hx := (Entails.of_eq (xPts_eq c _)) $$ Hx
  ihave Hout := (Entails.of_eq (oPts_eq c _)) $$ Hout
  iapply Hk
  unfold bodyPost Φ₁ Dat.owesAt Pipeline.owesWithin scrWhole
  rw [show (dats m ρ 0 c).owed t₀.succ = 0 from rfl]
  isplitl [Hscr HzS HzV]
  · isplitl [Hscr]; · iexists _; iexact Hscr
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

end Cert.KernelProof

end
-- ==== Proof.KernelLaunch.lean ====
/-
  The launch: from every device's body to the run of the whole mesh.

  The kernel's three cells live in a second copy of the rounds algebra beside the pipeline's own.  The barrier
  semaphore is the runtime's, not scoped to the launch, so its counter arrives among the launch's unscoped
  semaphores and all cells of all devices are allocated in one global step.  The duty tokens are then dealt
  across each pair of peers: a device pays its PEER's barrier duty and its PEER's receive duty, and its own
  send duty.  At launch a device's barrier cell is owed one unit (by its peer) and its receive cell the row's
  credit (by its peer): that is the credit its two waits spend.
-/
import proofs.«900932_g7700000000000933_dist_max_ax0_xy_m512_n256_v7x_xy2x2_f32_1_alg».proof.Proof.KernelBody

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def kCells : Finset (GSem nD τ sig) := Finset.univ.map ⟨kcell, kcell_injective⟩

/-- Each cell's one duty token as minted: (device, which cell). -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def kToks : Finset (GSem nD τ sig × ℕ × Unit) := Finset.univ.map ⟨tokOf, tokOf_injective⟩

def u₀ : UU :=
  (initOf (Pipeline.cells cfgs cellOf_inj) (Pipeline.launchToks cfgs cellOf_inj), initOf kCells kToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_k : BI.own (ER (initOf kCells kToks)) ⊢ (|==> bigSep Finset.univ (G m ρ) : sProp 𝕄) := by
  have hX (Φ : GSem nD τ sig → sProp 𝕄) : bigSep kCells Φ = bigSep Finset.univ fun c : Dev nD => bigSep Finset.univ fun k : Fin 3 => Φ (kcell (c, k)) := by
    unfold kCells; rw [bigSep_map, bigSep_univ_prod]; rfl
  have hT : bigSep kToks (fun x => (dutyTok ER x.1 x.2.1 x.2.2 : sProp 𝕄)) = bigSep Finset.univ fun c : Dev nD => toks c := by
    unfold kToks; rw [bigSep_map, bigSep_univ_prod]
    exact bigSep_congr fun c _ => by unfold toks; rw [bigSep_fin3]; rfl
  iintro HX
  imod (Rounds.fund ER (sched m ρ) kCells kToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across each pair: a barrier's token and a receive cell's token go to the peer. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if `d` is `c`'s peer. -/
theorem owed_bar (d c : Dev nD) : O₀ d (barCell c) () = if d = peer c then 1 else 0 := by
  unfold O₀ O₁
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀ O₁
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrWhole
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scrWhole
  iintro ⟨⟨%f, Hr⟩, HzS, HzV⟩
  isplitr; · iempintro
  isplitl [HzS HzV]
  · isplitl [HzS] <;> iassumption
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main — each pair of peers meeting on the barrier semaphore, then swapping their rows of column maxima —
    terminates, and every final state has each windowed array at the contents the proof data computes. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_k m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelProof.run_main' depends on axioms: [propext, Classical.choice, Quot.sound] -/
#guard_msgs in #print axioms run_main

end Cert.KernelProof

end
-- ==== Proof.KernelFinal.lean ====
/-
  The arrays after the run, read off the pipeline's proof data.  The input window is never written, so its
  array ends as launched; the block staged from it is the whole array.  The output window has one grid point,
  which writes its block — the whole array — back: the array ends holding what the body left in the staging
  buffer.
-/
import proofs.«900932_g7700000000000933_dist_max_ax0_xy_m512_n256_v7x_xy2x2_f32_1_alg».proof.Proof.KernelProto
import Idealize.ShloMosaic.Lib.Pipeline.Cells
import Idealize.ShloMosaic.Lib.Pipeline.Value

noncomputable section

namespace Cert.KernelProof

open Cert.Kernel Cert.Kernel.Gen

open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The staged block of the input is the device's whole argument array. -/
theorem xstg_eq (c : Dev nD) : xstg m ρ c = m ((c : Thread nD τ).loc main_arg0) := by
  unfold xstg
  exact Memref.read_access_unit_zero (Elt F) main_arg0 (funext fun a => Nat.zero_mul _) _ _

/-- The input array is never written. -/
theorem arrAt_arg (c : Dev nD) : (dats m ρ 0 c).arrAt (0 : Fin 2) cfg0.N = m ((c : Thread nD τ).loc main_arg0) := by
  exact ((dats m ρ 0 c).arrAt_in (0 : Fin 2) rfl _).trans rfl

/-- The output array ends holding the body's result. -/
theorem arrAt_out (c : Dev nD) : (dats m ρ 0 c).arrAt (1 : Fin 2) cfg0.N = outAt m ρ c := by
  have h := (dats m ρ 0 c).arrAt_succ (1 : Fin 2) t₀
  have hf : (cfg0.win (1 : Fin 2)).flush t₀ = true := by decide
  rw [if_pos hf] at h
  have hN : cfg0.N = t₀.val + 1 := cfg0_N.trans rfl
  refine (congrArg ((dats m ρ 0 c).arrAt (1 : Fin 2)) hN).trans (h.trans ?_)
  exact Memref.write_access_unit_zero_univ (Elt F) main_v1 (funext fun a => Nat.zero_mul _) _ _ _

end Cert.KernelProof

end
-- ==== Proof.KernelRun.lean ====
/-
  The run of the mesh with its results named: every device's result array ends holding the entrywise maximum
  of its own column maxima and its peer's, and every argument array ends as launched.  The frame is this run
  with the values dropped.
-/
import proofs.«900932_g7700000000000933_dist_max_ax0_xy_m512_n256_v7x_xy2x2_f32_1_alg».proof.Proof.KernelLaunch
import proofs.«900932_g7700000000000933_dist_max_ax0_xy_m512_n256_v7x_xy2x2_f32_1_alg».proof.Proof.KernelFinal

noncomputable section

namespace Cert.KernelProof

open Cert.Kernel Cert.Kernel.Gen

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

theorem run_values : θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  (θ_run defs _ _).mono (fun r h c => ⟨(h c (1 : Fin 2)).trans (arrAt_out m ρ c), (h c (0 : Fin 2)).trans (arrAt_arg m ρ c)⟩) (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_values m ρ)

end Cert.KernelProof

end
-- ==== Proof.KernelIdealProto.lean ====
/-
  The cross-device protocol of the column-maximum kernel on the 2 × 2 mesh, as data for the rounds discipline.

  Device `c` sits at mesh coordinates (c / 2, c % 2); its PEER is the device with the other first coordinate
  and the same second one.  `peer` is an involution without fixed points: the mesh falls into two pairs.
  Each device
    · signals its peer's barrier cell (one unit), handing over the right to write SLOT 1 of its own
      scratch buffer together with the fact that its receive cell stands at round 0;
    · stores the column maxima of its block into SLOT 0 of its scratch;
    · waits for one unit on its own barrier cell: its peer is inside the kernel, and the peer's slot 1 is now
      this device's to write;
    · copies its slot 0 into the peer's slot 1, crediting its own send cell and the peer's receive cell;
    · waits on its send cell (slot 0 is read out and comes back) and on its receive cell (slot 1 now holds
      the peer's column maxima);
    · stores the entrywise maximum of the two slots as its result.
  Every cell has ONE round with ONE duty.  A device waits on its barrier cell while it still owes its peer's
  receive cell; receive cells therefore sit above barrier cells in the order of levels, and nothing is owed
  at the two later waits.
-/
import proofs.«900932_g7700000000000933_dist_max_ax0_xy_m512_n256_v7x_xy2x2_f32_1_alg».proof.Proof.Gen.KernelIdeal
import proofs.«900932_g7700000000000933_dist_max_ax0_xy_m512_n256_v7x_xy2x2_f32_1_alg».proof.Proof.Gen.KernelIdeal.Skeleton
import proofs.«900932_g7700000000000933_dist_max_ax0_xy_m512_n256_v7x_xy2x2_f32_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.Writes

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy, and a second copy for the kernel's three cells -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The peer -/

/-- The device with the other first mesh coordinate: 0 ↔ 2, 1 ↔ 3. -/
def peer (c : Dev nD) : Dev nD := ⟨(c.val % 2 + 2) - 2 * (c.val / 2), by show _ < 4; have h : c.val < 4 := c.isLt; omega⟩

theorem peer_peer (c : Dev nD) : peer (peer c) = c := by revert c; decide

/-- Both device chains of the kernel (the signal's and the copy's) name the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def swap : Dev nD ≃ Dev nD := ⟨peer, peer, peer_peer, peer_peer⟩

/-! ## Memrefs and cells -/

abbrev xM : Memref sig .tc .vmem S512x256 .f32 := Memref.whole cc0_stg0_0
abbrev oM : Memref sig .tc .vmem S1x256 .f32 := Memref.whole cc0_stg1_0
abbrev sM : Memref sig .tc .vmem S2x1x256 .f32 := Memref.whole cc0_scratch0

/-- The two slots of the scratch buffer as rectangles, -/
abbrev rc0 : Rect S2x1x256 := Rect.unit (s := S2x1x256) ![0, 0, 0] S1x1x256.size inb_S2x1x256_S1x1x256_0_0_0
abbrev rc1 : Rect S2x1x256 := Rect.unit (s := S2x1x256) ![1, 0, 0] S1x1x256.size inb_S2x1x256_S1x1x256_1_0_0
/-- and as the rows the copy moves. -/
abbrev slot0 : Memref sig .tc .vmem S1x256 .f32 := (sM.slice rc0 (fun _ => rfl)).squeeze S1x256 squeezes_S1x1x256_S1x256
abbrev slot1 : Memref sig .tc .vmem S1x256 .f32 := (sM.slice rc1 (fun _ => rfl)).squeeze S1x256 squeezes_S1x1x256_S1x256

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them, -/
abbrev osem : Fin 2 → SemLoc sig := fun | 0 => .dma sendS.sem | 1 => .dma recvS.sem
/-- and all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (slot1 : Memref sig .tc .vmem S1x256 .f32).view.dmaCredit
theorem N_pos : 0 < N := View.dmaCredit_pos _ (by decide)

/-! ## Contents -/

/-- Device `c`'s block of the input, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The column maxima of device `c`'s block: what it stores into slot 0. -/
def mx (c : Dev nD) : Vec F S1x1x256 .f32 := k0_pay2 (xstg m ρ c)

/-- The result: the entrywise maximum of its own column maxima and its peer's. -/
def outAt (c : Dev nD) : (cc0_stg1_0 : Ref sig .tc).ty.Contents (Elt F) := k0_pay1 (mx m ρ c) (mx m ρ (peer c))

abbrev SBuf (c : Dev nD) : Type := Buf (Elt F) ((sM : Memref sig .tc .vmem S2x1x256 .f32).view.loc (c : Thread nD τ))

def slot0Pts (c : Dev nD) (g : SBuf (F := F) c) : sProp 𝕄 :=
  (slot0 : Memref sig .tc .vmem S1x256 .f32).view.loc (c : Thread nD τ) ↦[(slot0 : Memref sig .tc .vmem S1x256 .f32).view.set]{fullShare} g
def slot1Pts (c : Dev nD) (g : SBuf (F := F) c) : sProp 𝕄 :=
  (slot1 : Memref sig .tc .vmem S1x256 .f32).view.loc (c : Thread nD τ) ↦[(slot1 : Memref sig .tc .vmem S1x256 .f32).view.set]{fullShare} g

omit [FloatOps F] in
instance slot0Pts_storable (c : Dev nD) (g) : BI.Storable (upEmb : UEmb _ 𝕄) (slot0Pts (F := F) c g) := by unfold slot0Pts; infer_instance
omit [FloatOps F] in
instance slot1Pts_storable (c : Dev nD) (g) : BI.Storable (upEmb : UEmb _ 𝕄) (slot1Pts (F := F) c g) := by unfold slot1Pts; infer_instance

/-! ## The schedule -/

/-- What the peer's signal hands the owner of a barrier cell: the peer's slot 1, to write, and that the peer's receive
    cell stands at round 0. -/
def barPay (c : Dev nD) : sProp 𝕄 := iprop((∃ f, slot1Pts (peer c) f) ∗ reached ER (recvCell (peer c)) 0)
/-- What the send cell's landing hands back: slot 0, still reading as the device's column maxima. -/
def sendPay (c : Dev nD) : sProp 𝕄 :=
  iprop(∃ g : SBuf (F := F) c, ⌜(sM.access rc0 : View sig .tc _ _ _).read (Elt F) g = mx m ρ c⌝ ∗ slot0Pts c g)
/-- What the receive cell's landing hands over: slot 1, reading as the peer's column maxima. -/
def recvPay (c : Dev nD) : sProp 𝕄 :=
  iprop(∃ g : SBuf (F := F) c, ⌜(sM.access rc1 : View sig .tc _ _ _).read (Elt F) g = mx m ρ (peer c)⌝ ∗ slot1Pts c g)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, one duty on each of a device's three cells: the barrier's of one unit, the send's and the
    receive's of the row's credit. -/
def sched : Rounds.Schedule (GSem nD τ sig) Unit 𝕄 where
  duties g r := if r = 0 ∧ IsBar g then {()} else if r = 0 ∧ IsXfer g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem not_bar_send : ¬ IsBar (sendCell c) := fun h => send_ne_bar h.2
theorem not_bar_recv : ¬ IsBar (recvCell c) := fun h => recv_ne_bar h.2

theorem duties_bar : (sched (F := F) m ρ).duties (barCell c) 0 = {()} := by dsimp only [sched]; exact if_pos ⟨rfl, rfl, rfl⟩
theorem duties_send : (sched (F := F) m ρ).duties (sendCell c) 0 = {()} := by
  dsimp only [sched]; rw [if_neg (fun h => not_bar_send c h.2)]; exact if_pos ⟨rfl, rfl, .inl rfl⟩
theorem duties_recv : (sched (F := F) m ρ).duties (recvCell c) 0 = {()} := by
  dsimp only [sched]; rw [if_neg (fun h => not_bar_recv c h.2)]; exact if_pos ⟨rfl, rfl, .inr rfl⟩
theorem duties_later (g : GSem nD τ sig) : ∀ r, 1 ≤ r → (sched (F := F) m ρ).duties g r = ∅ :=
  fun r hr => by dsimp only [sched]; rw [if_neg fun h => by omega, if_neg fun h => by omega]

theorem amount_bar (d : Unit) : (sched (F := F) m ρ).amount (barCell c) 0 d = 1 := by dsimp only [sched]; exact if_pos rfl
theorem amount_send (d : Unit) : (sched (F := F) m ρ).amount (sendCell c) 0 d = N := by dsimp only [sched]; exact if_neg send_ne_bar
theorem amount_recv (d : Unit) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Unit) : (sched (F := F) m ρ).payload (barCell c) 0 d = barPay c := by dsimp only [sched]; rw [if_pos rfl]
theorem payload_send (d : Unit) : (sched (F := F) m ρ).payload (sendCell c) 0 d = sendPay m ρ c := by
  dsimp only [sched]; rw [if_neg send_ne_bar, if_neg send_ne_recv, if_pos rfl]
theorem payload_recv (d : Unit) : (sched (F := F) m ρ).payload (recvCell c) 0 d = recvPay m ρ c := by
  dsimp only [sched]; rw [if_neg recv_ne_bar, if_pos rfl]

/-- The rest of each cell's round, no duty taken yet, is the one duty's payload. -/
theorem rest_bar : bigSep ((sched (F := F) m ρ).duties (barCell c) 0 \ ∅) (fun d => (sched (F := F) m ρ).payload (barCell c) 0 d) = barPay c := by
  rw [Finset.sdiff_empty, duties_bar, bigSep_singleton, payload_bar]
theorem rest_send : bigSep ((sched (F := F) m ρ).duties (sendCell c) 0 \ ∅) (fun d => (sched (F := F) m ρ).payload (sendCell c) 0 d) = sendPay m ρ c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Sched

/-! ## What each device owes at launch; the levels -/

/-- Device `c` owes its peer's receive cell the row's credit (its copy) and its peer's barrier cell one unit (its
    signal, paid first: the last summand). -/
def O₁ (c : Dev nD) : CellTallies nD τ sig Unit := tallyAt (recvCell (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A staging wait (or the send wait) sits at level 0, below everything a device can owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its peer's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The invariants of the cells device `c`'s body opens, at the names `K` the launch allocated them under: its own three,
    its peer's barrier cell (its signal) and its peer's receive cell (its copy). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (peer c, 0)) (barCell (peer c)) ∗ cellInv ER (sched m ρ) (K (peer c, 2)) (recvCell (peer c)))

instance invs_persistent (K : Dev nD × Fin 3 → ℕ) (c : Dev nD) : BI.Persistent (invs m ρ K c) := by unfold invs; infer_instance

/-- The ghost state device `c` starts from: the invariants; its positions at round 0 of its three cells; that round 0 is
    reached on the cells it pays and on its own send and receive cells; the three duty tokens it pays with (its peer's
    barrier duty, its peer's receive duty, its own send duty). -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What a device's body starts from besides its buffers: the ghost state at some names, the credit for its two waits others
    pay (one unit of its barrier cell, the row's credit of its receive cell) and the level facts. -/
def start (c : Dev nD) : sProp 𝕄 :=
  iprop((∃ K, ghost m ρ K c) ∗ cred (tallyAt (barCell c) () 1) ∗ cred (tallyAt (recvCell c) () N) ∗ levAts L lv)

def scrWhole (c : Dev nD) (f : SBuf (F := F) c) : sProp 𝕄 := (((c : Thread nD τ).loc cc0_scratch0) ↦{fullShare} f : sProp 𝕄)

def Φ₀ (c : Dev nD) : sProp 𝕄 := iprop(start m ρ c ∗ ∃ f, scrWhole c f)
/-- After the point: the scratch buffer whole again, the two own cells at zero and closed. -/
def Φ₁ (c : Dev nD) : sProp 𝕄 := iprop((∃ f, scrWhole (F := F) c f) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdealProof

end
-- ==== Proof.KernelIdealBody.lean ====
/-
  One device's body, stepped from the protocol's ghost state.

  The scratch buffer is held in three parts: slot 1 (handed to the peer with the signal, and received back,
  written, from the receive cell), slot 0 (kept, stored into, lent to the copy and received back from the send
  cell) and whatever else the buffer has (nothing, but no step needs to know that).  Reading a slot after the
  copy: a row written through the squeezed view of slot 1 and read through slot 1's rectangle is the row read
  through slot 0's rectangle at the source.
-/
import proofs.«900932_g7700000000000933_dist_max_ax0_xy_m512_n256_v7x_xy2x2_f32_1_alg».proof.Proof.KernelIdealProto

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots' element sets -/

abbrev I0 : Finset (Idx ((sM : Memref sig .tc .vmem S2x1x256 .f32).view.loc ((0 : Dev nD) : Thread nD τ))) := (slot0 : Memref sig .tc .vmem S1x256 .f32).view.set
abbrev I1 : Finset (Idx ((sM : Memref sig .tc .vmem S2x1x256 .f32).view.loc ((0 : Dev nD) : Thread nD τ))) := (slot1 : Memref sig .tc .vmem S1x256 .f32).view.set

theorem slot0_set : (slot0 : Memref sig .tc .vmem S1x256 .f32).view.set = ((sM : Memref sig .tc .vmem S2x1x256 .f32).access rc0 : View sig .tc _ _ _).set :=
  View.set_reshape _ _
theorem slot1_set : (slot1 : Memref sig .tc .vmem S1x256 .f32).view.set = ((sM : Memref sig .tc .vmem S2x1x256 .f32).access rc1 : View sig .tc _ _ _).set :=
  View.set_reshape _ _

/-- The two slots share no element. -/
theorem slots_disjoint : Disjoint (slot0 : Memref sig .tc .vmem S1x256 .f32).view.set (slot1 : Memref sig .tc .vmem S1x256 .f32).view.set := by
  rw [slot0_set, slot1_set]
  exact View.disjoint_slice_of_disj _ rc0 rc1 (by decide)

theorem slot0_sub : (slot0 : Memref sig .tc .vmem S1x256 .f32).view.set ⊆ Finset.univ \ (slot1 : Memref sig .tc .vmem S1x256 .f32).view.set :=
  Finset.subset_sdiff.mpr ⟨Finset.subset_univ _, slots_disjoint⟩

/-! ## Reading the slots -/

omit [FloatOps F] in
/-- What was stored through slot 0's rectangle reads back through it. -/
theorem read_store0 (f : (cc0_scratch0 : Ref sig .tc).ty.Contents (Elt F)) (w : Vec F S1x1x256 .f32) :
    ((sM : Memref sig .tc .vmem S2x1x256 .f32).access rc0 : View sig .tc _ _ _).read (Elt F)
      (((sM : Memref sig .tc .vmem S2x1x256 .f32).access rc0 : View sig .tc _ _ _).write (Elt F) f w Finset.univ) = w :=
  View.read_write_univ _ _

omit [FloatOps F] in
/-- The row the copy lands in slot 1, read through slot 1's rectangle, is the source read through slot 0's. -/
theorem read_landed (fd fs : (cc0_scratch0 : Ref sig .tc).ty.Contents (Elt F)) :
    ((sM : Memref sig .tc .vmem S2x1x256 .f32).access rc1 : View sig .tc _ _ _).read (Elt F)
      ((slot1 : Memref sig .tc .vmem S1x256 .f32).view.write (Elt F) fd ((slot0 : Memref sig .tc .vmem S1x256 .f32).view.read (Elt F) fs) Finset.univ)
      = ((sM : Memref sig .tc .vmem S2x1x256 .f32).access rc0 : View sig .tc _ _ _).read (Elt F) fs := by
  show (((sM : Memref sig .tc .vmem S2x1x256 .f32).view.slice rc1)).read (Elt F)
      ((((sM : Memref sig .tc .vmem S2x1x256 .f32).view.slice rc1).reshape S1x256 squeezes_S1x1x256_S1x256.numel_eq).write (Elt F) fd
        ((((sM : Memref sig .tc .vmem S2x1x256 .f32).view.slice rc0).reshape S1x256 squeezes_S1x1x256_S1x256.numel_eq).read (Elt F) fs) Finset.univ) = _
  rw [View.write_reshape_univ, View.read_write_univ]
  funext x
  rw [View.read_apply, View.read_apply]
  simp only [View.emb_reshape, Function.Embedding.trans_apply, Equiv.coe_toEmbedding, Equiv.apply_symm_apply]

/-! ## The staging buffers' accesses -/

abbrev r512 : Rect S512x256 := Rect.unit (s := S512x256) ![0, 0] S512x256.size inb_S512x256_S512x256_0_0
abbrev r1 : Rect S1x256 := Rect.unit (s := S1x256) ![0, 0] S1x256.size inb_S1x256_S1x256_0_0

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x256 .f32).view.readAt (Elt F) r512.toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S1x256 .f32).access r1 : View sig .tc _ _ _).write (Elt F) f w Finset.univ = w :=
  Memref.write_access_unit_zero_univ (Elt F) cc0_stg1_0 hz2 _ f w

/-! ## The body -/

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell c) () N) ∗ levAts L lv ∗ ∃ f, scrWhole (F := F) c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

/-- The barrier duty's payload spelt out, at a device's own cell and at its peer's (where the peer's peer is the device). -/
theorem payload_bar_own (c : Dev nD) (d : Unit) : (sched (F := F) m ρ).payload (barCell c) 0 d
    = iprop((∃ f : SBuf (F := F) (peer c), (slot1 : Memref sig .tc .vmem S1x256 .f32).view.loc ((peer c : Dev nD) : Thread nD τ) ↦[(slot1 : Memref sig .tc .vmem S1x256 .f32).view.set]{fullShare} f)
        ∗ reached ER (recvCell (peer c)) 0) := by
  rw [payload_bar]; rfl
theorem payload_bar_peer (c : Dev nD) (d : Unit) : (sched (F := F) m ρ).payload (barCell (peer c)) 0 d
    = iprop((∃ f : SBuf (F := F) c, (slot1 : Memref sig .tc .vmem S1x256 .f32).view.loc ((c : Dev nD) : Thread nD τ) ↦[(slot1 : Memref sig .tc .vmem S1x256 .f32).view.set]{fullShare} f)
        ∗ reached ER (recvCell c) 0) := by
  rw [payload_bar]; unfold barPay slot1Pts; rw [peer_peer]

attribute [local sl_rounds] duties_bar duties_send duties_recv amount_bar amount_send amount_recv expect_bar expect_send expect_recv
  payload_bar_peer payload_send payload_recv

omit [FloatOps F] in
theorem xPts_eq (c : Dev nD) (f : (cc0_stg0_0 : Ref sig .tc).ty.Contents (Elt F)) :
    ((xM : Memref sig .tc .vmem S512x256 .f32).view.loc (c : Thread nD τ) ↦[(xM : Memref sig .tc .vmem S512x256 .f32).view.set]{fullShare} f : sProp 𝕄)
      = (((c : Thread nD τ).loc cc0_stg0_0) ↦{fullShare} f : sProp 𝕄) := by rw [View.set_whole]
omit [FloatOps F] in
theorem oPts_eq (c : Dev nD) (f : (cc0_stg1_0 : Ref sig .tc).ty.Contents (Elt F)) :
    ((oM : Memref sig .tc .vmem S1x256 .f32).view.loc (c : Thread nD τ) ↦[(oM : Memref sig .tc .vmem S1x256 .f32).view.set]{fullShare} f : sProp 𝕄)
      = (((c : Thread nD τ).loc cc0_stg1_0) ↦{fullShare} f : sProp 𝕄) := by rw [View.set_whole]

set_option maxHeartbeats 1600000 in
/-- The copy of slot 0 into the peer's slot 1 under the rounds discipline: the send duty of the device's own send cell hands
    slot 0 back, still reading as its column maxima; the receive duty of the peer's receive cell hands the peer its slot 1
    reading as those maxima (the device is its peer's peer). The device the copy names is substituted, not rewritten. -/
theorem wp_send_k (c n : Dev nD) (hn : n = peer c)
    {hsc : (slot1 : Memref sig (Dev.tc n : Thread nD τ).2.kind .vmem S1x256 .f32).view.ref.isScScratch = false}
    {hsrc : (slot0 : Memref sig .tc .vmem S1x256 .f32).view.WordExact} {hdst : (slot1 : Memref sig .tc .vmem S1x256 .f32).view.WordExact}
    {hsem : DmaTarget.Typed .vmem (.dma recvS.sem) (.remote (Dev.tc n : Thread nD τ) (slot1 : Memref sig .tc .vmem S1x256 .f32) (.dma sendS.sem) hsc)}
    {α : Type} {Q : α → sProp 𝕄} {k : PUnit → Prog (TpuEff nD τ sig (Elt F) Λ₀ .tc) α}
    (fs : SBuf (F := F) c) (hfs : ((sM : Memref sig .tc .vmem S2x1x256 .f32).access rc0 : View sig .tc _ _ _).read (Elt F) fs = mx m ρ c)
    (fd : SBuf (F := F) (peer c)) (W : Waits sig Unit) :
    iprop(cellInv ER (sched m ρ) (K (c, 1)) (sendCell c) ∗ cellInv ER (sched m ρ) (K (peer c, 2)) (recvCell (peer c))
        ∗ slot0Pts c fs ∗ slot1Pts (peer c) fd
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot1 (.dma sendS.sem) hsc) (.dma recvS.sem) hsrc hdst hsem) k) Q) := by
  subst hn
  unfold slot0Pts slot1Pts
  exact Rounds.wp_send_pointsTo 𝒱₀ ER (sched m ρ) (c : Thread nD τ) none (c' := ((peer c : Dev nD) : Thread nD τ))
    (src := (slot0 : Memref sig .tc .vmem S1x256 .f32)) (dst := (slot1 : Memref sig .tc .vmem S1x256 .f32)) (q := fullShare)
    (κ₁ := K (c, 1)) (κ₂ := K (peer c, 2))
    (r₁ := 0) (r₂ := 0) (d₁ := ()) (d₂ := ()) (fs := fs) (fd := fd)
    (by rw [duties_send]; exact Finset.mem_singleton_self _) (by rw [duties_recv]; exact Finset.mem_singleton_self _)
    () () N rfl (amount_send m ρ c ()) (amount_recv m ρ (peer c) ()) 0 (by rw [zero_add]) (W := W)
    (by
      rw [payload_send]; unfold sendPay slot0Pts
      iintro H; iexists fs
      isplitr; · ipureintro; exact hfs
      iexact H)
    (by
      rw [payload_recv]; unfold recvPay slot1Pts
      iintro H
      iexists ((slot1 : Memref sig .tc .vmem S1x256 .f32).view.write (Elt F) fd ((slot0 : Memref sig .tc .vmem S1x256 .f32).view.read (Elt F) fs) Finset.univ)
      isplitr; · ipureintro; rw [read_landed, peer_peer]; exact hfs
      iexact H)

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c]
  -- the scratch buffer cut into slot 1, slot 0 and the rest
  unfold scrWhole
  have cut1 := (pointsTo_split_subset (nD := nD) (τ := τ) (sig := sig) (Ix := Unit) (Val := Elt F) (Name := ℕ) (U := UU) (Lvl := ℕ)
    (ℓ := (c : Thread nD τ).loc cc0_scratch0) (q := fullShare) (f := f0)
    (I := (slot1 : Memref sig .tc .vmem S1x256 .f32).view.set) (S := Finset.univ) (Finset.subset_univ _)).1
  have cut0 := (pointsTo_split_subset (nD := nD) (τ := τ) (sig := sig) (Ix := Unit) (Val := Elt F) (Name := ℕ) (U := UU) (Lvl := ℕ)
    (ℓ := (c : Thread nD τ).loc cc0_scratch0) (q := fullShare) (f := f0)
    (I := (slot0 : Memref sig .tc .vmem S1x256 .f32).view.set) (S := Finset.univ \ (slot1 : Memref sig .tc .vmem S1x256 .f32).view.set) slot0_sub).1
  ihave Hsp := cut1 $$ Hscr
  icases Hsp with ⟨Hs1, Hs0r⟩
  ihave Hsp := cut0 $$ Hs0r
  icases Hsp with ⟨Hs0, Hrest⟩
  ihave Hx := (Entails.of_eq (xPts_eq c _).symm) $$ Hx
  ihave Hout := (Entails.of_eq (oPts_eq c _).symm) $$ Hout
  unfold O₀ O₁
  -- the signal to the peer's barrier cell (slot 1 handed over with it) and the load of the block
  sl_exec
  rw [read_x]
  -- slot 0: the load the store is lowered with, then the store of the column maxima
  iapply (wp_load_rect 𝒱₀ (c : Thread nD τ) none Set.univ (m := sM) (r := rc0) (S := (slot0 : Memref sig .tc .vmem S1x256 .f32).view.set)
    (q := fullShare) (f := f0) (by rw [slot0_set])) $$ Hs0
  iintro Hs0
  iapply (wp_store 𝒱₀ (c : Thread nD τ) none Set.univ (m := sM) (r := rc0) (Mk := Finset.univ) (S := (slot0 : Memref sig .tc .vmem S1x256 .f32).view.set)
    (f := f0) (by rw [View.setOn_univ, slot0_set])) $$ Hs0
  iintro Hs0
  -- the wait on the own barrier cell, owing the peer's receive credit: the peer's slot 1 comes with it
  iapply (Rounds.wp_wait_rest_token 𝒱₀ ER (sched m ρ) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn, HscrP⟩, #HrVP'⟩
  -- the copy into the peer's slot 1
  iapply (wp_send_k m ρ K c _ (dev2_eq c)
      (((sM : Memref sig .tc .vmem S2x1x256 .f32).access rc0 : View sig .tc _ _ _).write (Elt F) f0 (k0_pay2 (xstg m ρ c)) Finset.univ)
      (read_store0 f0 (k0_pay2 (xstg m ρ c))) fn (insert (SemLoc.reg barS, ()) W)) $$ [Hs0 HscrP HO HtS HtVP]
  · isplitr; · iexact HIsnd
    isplitr; · iexact HIrcvP
    isplitl [Hs0]; · unfold slot0Pts; iexact Hs0
    isplitl [HscrP]; · iexact HscrP
    isplitl [HO]; · iexact HO
    isplitl [HtS]; · iexact HtS
    isplitr; · iexact HrS
    isplitl [HtVP]; · iexact HtVP
    iexact HrVP
  iintro ⟨HcS, HO⟩
  -- the wait on the send cell: slot 0 back
  iapply (Rounds.wp_wait_rest_token 𝒱₀ ER (sched m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hp := (Entails.of_eq (rest_send m ρ c)) $$ Hpay
  unfold sendPay
  icases Hp with ⟨%g0', %hg0', Hs0⟩
  -- the wait on the receive cell: slot 1, holding the peer's column maxima
  iapply (Rounds.wp_wait_rest_token 𝒱₀ ER (sched m ρ) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hp := (Entails.of_eq (rest_recv m ρ c)) $$ Hpay
  unfold recvPay
  icases Hp with ⟨%g1', %hg1', Hs1⟩
  -- the two own cells close: their counters at zero are the device's again
  imod (Rounds.cell_close ER (sched m ρ) (Set.mem_univ (K (c, 1))) (fun h => h) (R := 0 + 1) (duties_later m ρ (sendCell c))) $$ [HatS] with HzS
  · isplitr; · iexact HIsnd
    iexact HatS
  imod (Rounds.cell_close ER (sched m ρ) (Set.mem_univ (K (c, 2))) (fun h => h) (R := 0 + 1) (duties_later m ρ (recvCell c))) $$ [HatV] with HzV
  · isplitr; · iexact HIrcv
    iexact HatV
  -- the two slots read, the result stored
  unfold slot0Pts slot1Pts
  iapply (wp_load_rect 𝒱₀ (c : Thread nD τ) none Set.univ (m := sM) (r := rc0) (S := (slot0 : Memref sig .tc .vmem S1x256 .f32).view.set)
    (q := fullShare) (f := g0') (by rw [slot0_set])) $$ Hs0
  iintro Hs0
  iapply (wp_load_rect 𝒱₀ (c : Thread nD τ) none Set.univ (m := sM) (r := rc1) (S := (slot1 : Memref sig .tc .vmem S1x256 .f32).view.set)
    (q := fullShare) (f := g1') (by rw [slot1_set])) $$ Hs1
  iintro Hs1
  rw [hg0', hg1']
  iapply (wp_load 𝒱₀ (c : Thread nD τ) none Set.univ (m := oM) (View.setOn_subset_set _ _)) $$ Hout; iintro Hout
  iapply (wp_store 𝒱₀ (c : Thread nD τ) none Set.univ (m := oM) (r := r1) (Mk := Finset.univ)
    (by rw [View.setOn_univ]; exact View.set_slice_subset _ _)) $$ Hout; iintro Hout
  rw [write_out, wp_ret]; imodintro
  -- the scratch buffer put back together
  have join0 := pointsTo_join_subset (nD := nD) (τ := τ) (sig := sig) (Ix := Unit) (Val := Elt F) (Name := ℕ) (U := UU) (Lvl := ℕ)
    (ℓ := (c : Thread nD τ).loc cc0_scratch0) (q := fullShare) (g := g0') (f := f0)
    (I := (slot0 : Memref sig .tc .vmem S1x256 .f32).view.set) (S := Finset.univ \ (slot1 : Memref sig .tc .vmem S1x256 .f32).view.set) slot0_sub
  ihave Hs0r := join0 $$ [Hs0 Hrest]
  · isplitl [Hs0]; · iexact Hs0
    iexact Hrest
  have join1 := pointsTo_join_subset (nD := nD) (τ := τ) (sig := sig) (Ix := Unit) (Val := Elt F) (Name := ℕ) (U := UU) (Lvl := ℕ)
    (ℓ := (c : Thread nD τ).loc cc0_scratch0) (q := fullShare) (g := g1')
    (f := ((slot0 : Memref sig .tc .vmem S1x256 .f32).view.set).piecewise g0' f0)
    (I := (slot1 : Memref sig .tc .vmem S1x256 .f32).view.set) (S := Finset.univ) (Finset.subset_univ _)
  ihave Hscr := join1 $$ [Hs1 Hs0r]
  · isplitl [Hs1]; · iexact Hs1
    iexact Hs0r
  ihave Hx := (Entails.of_eq (xPts_eq c _)) $$ Hx
  ihave Hout := (Entails.of_eq (oPts_eq c _)) $$ Hout
  iapply Hk
  unfold bodyPost Φ₁ Dat.owesAt Pipeline.owesWithin scrWhole
  rw [show (dats m ρ 0 c).owed t₀.succ = 0 from rfl]
  isplitl [Hscr HzS HzV]
  · isplitl [Hscr]; · iexists _; iexact Hscr
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

end Cert.KernelIdealProof

end
-- ==== Proof.KernelIdealLaunch.lean ====
/-
  The launch: from every device's body to the run of the whole mesh.

  The kernel's three cells live in a second copy of the rounds algebra beside the pipeline's own.  The barrier
  semaphore is the runtime's, not scoped to the launch, so its counter arrives among the launch's unscoped
  semaphores and all cells of all devices are allocated in one global step.  The duty tokens are then dealt
  across each pair of peers: a device pays its PEER's barrier duty and its PEER's receive duty, and its own
  send duty.  At launch a device's barrier cell is owed one unit (by its peer) and its receive cell the row's
  credit (by its peer): that is the credit its two waits spend.
-/
import proofs.«900932_g7700000000000933_dist_max_ax0_xy_m512_n256_v7x_xy2x2_f32_1_alg».proof.Proof.KernelIdealBody

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def kCells : Finset (GSem nD τ sig) := Finset.univ.map ⟨kcell, kcell_injective⟩

/-- Each cell's one duty token as minted: (device, which cell). -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def kToks : Finset (GSem nD τ sig × ℕ × Unit) := Finset.univ.map ⟨tokOf, tokOf_injective⟩

def u₀ : UU :=
  (initOf (Pipeline.cells cfgs cellOf_inj) (Pipeline.launchToks cfgs cellOf_inj), initOf kCells kToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_k : BI.own (ER (initOf kCells kToks)) ⊢ (|==> bigSep Finset.univ (G m ρ) : sProp 𝕄) := by
  have hX (Φ : GSem nD τ sig → sProp 𝕄) : bigSep kCells Φ = bigSep Finset.univ fun c : Dev nD => bigSep Finset.univ fun k : Fin 3 => Φ (kcell (c, k)) := by
    unfold kCells; rw [bigSep_map, bigSep_univ_prod]; rfl
  have hT : bigSep kToks (fun x => (dutyTok ER x.1 x.2.1 x.2.2 : sProp 𝕄)) = bigSep Finset.univ fun c : Dev nD => toks c := by
    unfold kToks; rw [bigSep_map, bigSep_univ_prod]
    exact bigSep_congr fun c _ => by unfold toks; rw [bigSep_fin3]; rfl
  iintro HX
  imod (Rounds.fund ER (sched m ρ) kCells kToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across each pair: a barrier's token and a receive cell's token go to the peer. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if `d` is `c`'s peer. -/
theorem owed_bar (d c : Dev nD) : O₀ d (barCell c) () = if d = peer c then 1 else 0 := by
  unfold O₀ O₁
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀ O₁
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrWhole
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scrWhole
  iintro ⟨⟨%f, Hr⟩, HzS, HzV⟩
  isplitr; · iempintro
  isplitl [HzS HzV]
  · isplitl [HzS] <;> iassumption
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main — each pair of peers meeting on the barrier semaphore, then swapping their rows of column maxima —
    terminates, and every final state has each windowed array at the contents the proof data computes. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_k m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

end Cert.KernelIdealProof

end
-- ==== Proof.KernelIdealFinal.lean ====
/-
  The arrays after the run, read off the pipeline's proof data.  The input window is never written, so its
  array ends as launched; the block staged from it is the whole array.  The output window has one grid point,
  which writes its block — the whole array — back: the array ends holding what the body left in the staging
  buffer.
-/
import proofs.«900932_g7700000000000933_dist_max_ax0_xy_m512_n256_v7x_xy2x2_f32_1_alg».proof.Proof.KernelIdealProto
import Idealize.ShloMosaic.Lib.Pipeline.Cells
import Idealize.ShloMosaic.Lib.Pipeline.Value

noncomputable section

namespace Cert.KernelIdealProof

open Cert.KernelIdeal Cert.KernelIdeal.Gen

open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The staged block of the input is the device's whole argument array. -/
theorem xstg_eq (c : Dev nD) : xstg m ρ c = m ((c : Thread nD τ).loc main_arg0) := by
  unfold xstg
  exact Memref.read_access_unit_zero (Elt F) main_arg0 (funext fun a => Nat.zero_mul _) _ _

/-- The input array is never written. -/
theorem arrAt_arg (c : Dev nD) : (dats m ρ 0 c).arrAt (0 : Fin 2) cfg0.N = m ((c : Thread nD τ).loc main_arg0) := by
  exact ((dats m ρ 0 c).arrAt_in (0 : Fin 2) rfl _).trans rfl

/-- The output array ends holding the body's result. -/
theorem arrAt_out (c : Dev nD) : (dats m ρ 0 c).arrAt (1 : Fin 2) cfg0.N = outAt m ρ c := by
  have h := (dats m ρ 0 c).arrAt_succ (1 : Fin 2) t₀
  have hf : (cfg0.win (1 : Fin 2)).flush t₀ = true := by decide
  rw [if_pos hf] at h
  have hN : cfg0.N = t₀.val + 1 := cfg0_N.trans rfl
  refine (congrArg ((dats m ρ 0 c).arrAt (1 : Fin 2)) hN).trans (h.trans ?_)
  exact Memref.write_access_unit_zero_univ (Elt F) main_v1 (funext fun a => Nat.zero_mul _) _ _ _

end Cert.KernelIdealProof

end
-- ==== Proof.KernelIdealRun.lean ====
/-
  The run of the mesh with its results named: every device's result array ends holding the entrywise maximum
  of its own column maxima and its peer's, and every argument array ends as launched.  The frame is this run
  with the values dropped.
-/
import proofs.«900932_g7700000000000933_dist_max_ax0_xy_m512_n256_v7x_xy2x2_f32_1_alg».proof.Proof.KernelIdealLaunch
import proofs.«900932_g7700000000000933_dist_max_ax0_xy_m512_n256_v7x_xy2x2_f32_1_alg».proof.Proof.KernelIdealFinal

noncomputable section

namespace Cert.KernelIdealProof

open Cert.KernelIdeal Cert.KernelIdeal.Gen

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

theorem run_values : θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  (θ_run defs _ _).mono (fun r h c => ⟨(h c (1 : Fin 2)).trans (arrAt_out m ρ c), (h c (0 : Fin 2)).trans (arrAt_arg m ρ c)⟩) (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_values m ρ)

end Cert.KernelIdealProof

end
-- ==== Proof.lean ====
/-
  The certificate of the column-maximum kernel on the 2 × 2 mesh.

  Each of the four devices holds a 512 × 256 block of a 1024 × 512 array; devices 0 ↔ 2 and 1 ↔ 3 hold the two halves
  (upper and lower 512 rows) of the same 256 columns.  A device takes the column maxima of its block, meets its peer on
  the barrier semaphore, copies its row of maxima into the peer's scratch and takes the entrywise maximum of its own row
  and the one it received.  The reference takes the column maxima of the whole array on one device.

  · The three frames: the kernel's run is the launch theorem applied to one symbolic device's body under the rounds
    discipline (modules KernelIdealProto, -Body, -Launch, -Final, -Run; the word-level program's are the same text at its
    own namespace); the reference's is its generated run with the value dropped.
  · preserves: the idealization rewrote nothing.
  · algebraic: over the extended reals the maximum over 1024 rows is the maximum of the maxima over the upper and the
    lower 512 rows (MaxValue), so device `c`'s result is the stretch of the reference's row at block coordinate c % 2.
-/
import proofs.«900932_g7700000000000933_dist_max_ax0_xy_m512_n256_v7x_xy2x2_f32_1_alg».proof.Defs
import proofs.«900932_g7700000000000933_dist_max_ax0_xy_m512_n256_v7x_xy2x2_f32_1_alg».proof.Proof.Gen.Kernel
import proofs.«900932_g7700000000000933_dist_max_ax0_xy_m512_n256_v7x_xy2x2_f32_1_alg».proof.Proof.Gen.Kernel.Skeleton
import proofs.«900932_g7700000000000933_dist_max_ax0_xy_m512_n256_v7x_xy2x2_f32_1_alg».proof.Proof.Gen.Kernel.Launch
import proofs.«900932_g7700000000000933_dist_max_ax0_xy_m512_n256_v7x_xy2x2_f32_1_alg».proof.Proof.Gen.Kernel.Points
import proofs.«900932_g7700000000000933_dist_max_ax0_xy_m512_n256_v7x_xy2x2_f32_1_alg».proof.Proof.Gen.Kernel.Frame
import proofs.«900932_g7700000000000933_dist_max_ax0_xy_m512_n256_v7x_xy2x2_f32_1_alg».proof.Proof.Gen.KernelIdeal
import proofs.«900932_g7700000000000933_dist_max_ax0_xy_m512_n256_v7x_xy2x2_f32_1_alg».proof.Proof.Gen.KernelIdeal.Skeleton
import proofs.«900932_g7700000000000933_dist_max_ax0_xy_m512_n256_v7x_xy2x2_f32_1_alg».proof.Proof.Gen.KernelIdeal.Launch
import proofs.«900932_g7700000000000933_dist_max_ax0_xy_m512_n256_v7x_xy2x2_f32_1_alg».proof.Proof.Gen.KernelIdeal.Points
import proofs.«900932_g7700000000000933_dist_max_ax0_xy_m512_n256_v7x_xy2x2_f32_1_alg».proof.Proof.Gen.KernelIdeal.Frame
import proofs.«900932_g7700000000000933_dist_max_ax0_xy_m512_n256_v7x_xy2x2_f32_1_alg».proof.Proof.Gen.ReferenceIdeal
import proofs.«900932_g7700000000000933_dist_max_ax0_xy_m512_n256_v7x_xy2x2_f32_1_alg».proof.Proof.Gen.Pre_finite_inputs_Kernel
import proofs.«900932_g7700000000000933_dist_max_ax0_xy_m512_n256_v7x_xy2x2_f32_1_alg».proof.Proof.Gen.Pre_finite_inputs_ReferenceIdeal
import proofs.«900932_g7700000000000933_dist_max_ax0_xy_m512_n256_v7x_xy2x2_f32_1_alg».proof.Proof.RefRun
import proofs.«900932_g7700000000000933_dist_max_ax0_xy_m512_n256_v7x_xy2x2_f32_1_alg».proof.Proof.MaxValue
import proofs.«900932_g7700000000000933_dist_max_ax0_xy_m512_n256_v7x_xy2x2_f32_1_alg».proof.Proof.KernelRun
import proofs.«900932_g7700000000000933_dist_max_ax0_xy_m512_n256_v7x_xy2x2_f32_1_alg».proof.Proof.KernelIdealRun
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.KernelProof.frame (F := Bits) m ρ

theorem frame_pi : Cert.frame_KernelIdeal := fun m ρ _ => Cert.KernelIdealProof.frame (F := Ideal) m ρ

/-- Both programs run; the reference's row `v` is the column maxima of the whole array, and each device's result is its
    stretch of `v`: the device's block and its peer's are the upper and lower halves of its columns. -/
theorem algebraic : Cert.algebraic_KernelIdeal_ReferenceIdeal := by
  intro m ρ m' ρ' _ hagree
  refine ⟨Cert.Proof.MaxValue.refRow (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun r h c => ⟨(h c).1.trans ?_, (h c).2⟩)
      (Cert.KernelIdealProof.run_values (F := Ideal) m ρ)
    unfold Cert.KernelIdealProof.outAt Cert.KernelIdealProof.mx
    rw [Cert.KernelIdealProof.xstg_eq, Cert.KernelIdealProof.xstg_eq, hagree c, hagree (Cert.KernelIdealProof.peer c)]
    exact Cert.Proof.MaxValue.out_block _ c (Cert.KernelIdealProof.peer c) rfl
  · exact (θ_run (Cert.ReferenceIdeal.defs (F := Ideal)) _ _).mono (fun _ h => ⟨(h 0).1, (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, frame_pi, Cert.Proof.RefRun.frame_ri, trivial, algebraic⟩

end Cert.Proof

end
